-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S8192x128 : Shape := ⟨2, ![8192, 128]⟩
abbrev S8192x1 : Shape := ⟨2, ![8192, 1]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x1, .f32⟩
  | .local _ .vmem, ⟨4, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v7 : BitVec 32 := Scalar.muli arg0 c1024_i32
  v7
def k0_off1 (i : grid0.Coords) : Fin 2 → Nat :=
  let arg0 : BitVec 32 := BitVec.ofNat 32 (i 0).val
  let c1024_i32 : BitVec 32 := 1024#32
  let v7 : BitVec 32 := Scalar.muli arg0 c1024_i32
  let v8 : BitVec 32 := v7
  let v9 : Index := Scalar.indexCast v8
  let c0_1 : Index := 0#32
  ![v9.toNat, 0]
def k0_mult2 : BitVec 32 :=
  let c0_i32 : BitVec 32 := 0#32
  let c1024_i32_4 : BitVec 32 := 1024#32
  let v18 : BitVec 32 := Scalar.muli c0_i32 c1024_i32_4
  v18
def k0_off2 (c0_i32 : BitVec 32) : Fin 2 → Nat :=
  let c1024_i32_4 : BitVec 32 := 1024#32
  let v18 : BitVec 32 := Scalar.muli c0_i32 c1024_i32_4
  let v19 : BitVec 32 := v18
  let v20 : Index := Scalar.indexCast v19
  let c0_5 : Index := 0#32
  ![v20.toNat, 0]
def k0_mult3 : BitVec 32 :=
  let c1_i32 : BitVec 32 := 1#32
  let c1024_i32_11 : BitVec 32 := 1024#32
  let v40 : BitVec 32 := Scalar.muli c1_i32 c1024_i32_11
  v40
def k0_mult4 : BitVec 32 :=
  let c2_i32 : BitVec 32 := 2#32
  let c1024_i32_18 : BitVec 32 := 1024#32
  let v62 : BitVec 32 := Scalar.muli c2_i32 c1024_i32_18
  v62
def k0_mult5 : BitVec 32 :=
  let c3_i32 : BitVec 32 := 3#32
  let c1024_i32_25 : BitVec 32 := 1024#32
  let v84 : BitVec 32 := Scalar.muli c3_i32 c1024_i32_25
  v84
def k0_mult6 : BitVec 32 :=
  let c4_i32 : BitVec 32 := 4#32
  let c1024_i32_32 : BitVec 32 := 1024#32
  let v106 : BitVec 32 := Scalar.muli c4_i32 c1024_i32_32
  v106
def k0_mult7 : BitVec 32 :=
  let c5_i32 : BitVec 32 := 5#32
  let c1024_i32_39 : BitVec 32 := 1024#32
  let v128 : BitVec 32 := Scalar.muli c5_i32 c1024_i32_39
  v128
def k0_mult8 : BitVec 32 :=
  let c6_i32 : BitVec 32 := 6#32
  let c1024_i32_46 : BitVec 32 := 1024#32
  let v150 : BitVec 32 := Scalar.muli c6_i32 c1024_i32_46
  v150
def k0_mult9 : BitVec 32 :=
  let c7_i32 : BitVec 32 := 7#32
  let c1024_i32_53 : BitVec 32 := 1024#32
  let v172 : BitVec 32 := Scalar.muli c7_i32 c1024_i32_53
  v172
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16384x128_S8192x128_0_0 : S16384x128.Slices ![0, 0] S8192x128
  slices_S16384x128_S8192x128_8192_0 : S16384x128.Slices ![8192, 0] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  transposes_S1x1024_p1_0_S1024x1 : S1x1024.Transposes [1, 0] S1024x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  k0_mult2_dvd : 1024 ∣ k0_mult2.toNat
  k0_off2_inb : ∀ (r : Fin 8), ∀ a, (k0_off2 (BitVec.ofNat 32 r.val)) a + S1024x128.size a ≤ S8192x128.size a
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x128, .f32⟩
  | .hbm, ⟨9, _⟩ => ⟨S_, .f32⟩
  | .hbm, ⟨10, _⟩ => ⟨S8192, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S128x8192, .f32⟩
  | .hbm, ⟨15, _⟩ => ⟨S8192x8192, .f32⟩
  | .hbm, ⟨16, _⟩ => ⟨S8192x1, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  slices_S16384x128_S8192x128_0_0 : S16384x128.Slices ![0, 0] S8192x128
  slices_S16384x128_S8192x128_8192_0 : S16384x128.Slices ![8192, 0] S8192x128
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.TripletSpec.lean ====
/-
  The triplet loss both programs compute, as ONE function of the anchor rows `A` and the positive rows `P`
  (extended reals, every operation exact). Row by row, for an anchor row `a`, its own positive row `p` and all
  positive rows `P`:

      rowDist a p   = √ (∑ₖ (a k − p k)²)
      gram a b      = √ (max ((‖a‖² + ‖b‖²) − 2 · ∑ₖ a k · b k) 0)       (the clamped Gram-trick distance)
      nearest a P   = the minimum over ALL rows j of gram a (P j)        (a fold of `min` from +∞)
      hingeRow a p P = max ((rowDist a p − nearest a P) + 1) 0
      loss A P      = (0 + ∑ᵢ hingeRow (A i) (P i) P) / 8192

  and the two rearrangements under which the kernel computes the same numbers:
    • it forms the squared distance as (‖b‖² + ‖a‖²) − 2 · ∑ₖ b k · a k (`gramK`) — commutativity of + and ·, which hold
      on the extended reals without any finiteness;
    • it takes the minimum over the 8192 rows as a running minimum over 8 chunks of 1024 rows, each chunk's own minimum
      again folded from +∞ (`runMin`) — `min` is a semilattice operation, so a bound lies below the running minimum iff
      it lies below the seed and below every entry, whatever the grouping (`Finset.le_fold_min`).
  The float constants stay the words the programs print; the same word stands on both sides and is never evaluated.
-/
import Idealize.ShloMosaic.PureOps.Ideal
import Idealize.ShloMosaic.PureOps.Ideal.Laws
import Idealize.ShloMosaic.Lib.ValueIdx

noncomputable section

open Idealize.ShloMosaic

namespace Triplet

/-- The printed constants: 0.0, 1.0 (the margin), 2.0, 8192.0 (the batch), +∞ (the minimum's seed). -/
abbrev c0 : EReal := Ideal.ofBits .f32 0x00000000#32
abbrev c1 : EReal := Ideal.ofBits .f32 0x3F800000#32
abbrev c2 : EReal := Ideal.ofBits .f32 0x40000000#32
abbrev cN : EReal := Ideal.ofBits .f32 0x46000000#32
abbrev cInf : EReal := Ideal.ofBits .f32 0x7F800000#32

/-- One row: 128 features. -/
abbrev Row := Fin 128 → EReal
/-- `n` rows. -/
abbrev Rows (n : ℕ) := Fin n → Row

/-- The rows of an [n, 128] array of extended reals. -/
def rowsOf {n : ℕ} (v : (⟨2, ![n, 128]⟩ : Shape).Idx → EReal) : Rows n := fun i k => v (ValueIdx.ix2 i k)

/-- ‖a‖². -/
def sqn (a : Row) : EReal := ∑ k, a k * a k

/-- The distance of an anchor row to its own positive row. -/
def rowDist (a p : Row) : EReal := Ideal.sqrt (∑ k, (a k - p k) * (a k - p k))

/-- The clamped Gram-trick distance between an anchor row `a` and a positive row `b`. -/
def gram (a b : Row) : EReal := Ideal.sqrt (max ((sqn a + sqn b) - c2 * ∑ k, a k * b k) c0)

/-- The same as the kernel spells it: the positive row's terms first. -/
def gramK (a b : Row) : EReal := Ideal.sqrt (max ((sqn b + sqn a) - c2 * ∑ k, b k * a k) c0)

theorem gramK_eq (a b : Row) : gramK a b = gram a b := by
  unfold gramK gram
  rw [add_comm (sqn b) (sqn a), Finset.sum_congr rfl fun k _ => mul_comm (b k) (a k)]

/-- The nearest positive row: the minimum of the distances over every row, from +∞. -/
def nearest {n : ℕ} (a : Row) (P : Rows n) : EReal := Finset.univ.fold min cInf (fun j => gram a (P j))

/-- The hinge of one anchor row. -/
def hingeRow {n : ℕ} (a p : Row) (P : Rows n) : EReal := max ((rowDist a p - nearest a P) + c1) c0

/-- The mean hinge over the batch, as both programs' host lines take it: the sum from 0.0, divided by 8192.0. -/
def loss (A P : Rows 8192) : EReal := Ideal.div (c0 + ∑ i, hingeRow (A i) (P i) P) cN

/-! ## The minimum over 8192 rows, chunk by chunk -/

/-- Row `q` of chunk `c` (1024 rows a chunk). -/
def chunkRow (c : Fin 8) (q : Fin 1024) : Fin 8192 := ⟨1024 * c.val + q.val, by have := c.isLt; have := q.isLt; omega⟩

/-- Every row lies in a chunk. -/
theorem exists_chunkRow (j : Fin 8192) : ∃ c q, j = chunkRow c q :=
  ⟨⟨j.val / 1024, Nat.div_lt_of_lt_mul (by have := j.isLt; omega)⟩, ⟨j.val % 1024, Nat.mod_lt _ (by norm_num)⟩,
    Fin.ext (Nat.div_add_mod j.val 1024).symm⟩

/-- One chunk's minimum, as the kernel takes it (its own spelling of the distance), from +∞. -/
def blockMin (a : Row) (C : Rows 1024) : EReal := Finset.univ.fold min cInf (fun q => gramK a (C q))

/-- The kernel's running minimum over the eight chunks `r0 … r7`, first to last, from +∞. -/
def runMin (a : Row) (r0 r1 r2 r3 r4 r5 r6 r7 : Rows 1024) : EReal :=
  min (min (min (min (min (min (min (min cInf (blockMin a r0)) (blockMin a r1)) (blockMin a r2)) (blockMin a r3))
    (blockMin a r4)) (blockMin a r5)) (blockMin a r6)) (blockMin a r7)

/-- The running minimum over the eight chunks of `P` is the minimum over all of `P`'s rows: a bound is below either iff
    it is below +∞'s word and below every row's distance. -/
theorem runMin_eq (a : Row) (P : Rows 8192) (r0 r1 r2 r3 r4 r5 r6 r7 : Rows 1024)
    (e0 : ∀ q, r0 q = P (chunkRow 0 q)) (e1 : ∀ q, r1 q = P (chunkRow 1 q)) (e2 : ∀ q, r2 q = P (chunkRow 2 q))
    (e3 : ∀ q, r3 q = P (chunkRow 3 q)) (e4 : ∀ q, r4 q = P (chunkRow 4 q)) (e5 : ∀ q, r5 q = P (chunkRow 5 q))
    (e6 : ∀ q, r6 q = P (chunkRow 6 q)) (e7 : ∀ q, r7 q = P (chunkRow 7 q)) :
    runMin a r0 r1 r2 r3 r4 r5 r6 r7 = nearest a P := by
  refine eq_of_forall_le_iff fun x => ?_
  simp only [runMin, blockMin, nearest, le_min_iff, Finset.le_fold_min, Finset.mem_univ, true_imp_iff, gramK_eq,
    e0, e1, e2, e3, e4, e5, e6, e7]
  constructor
  · rintro ⟨⟨⟨⟨⟨⟨⟨⟨hb, -, h0⟩, -, h1⟩, -, h2⟩, -, h3⟩, -, h4⟩, -, h5⟩, -, h6⟩, -, h7⟩
    refine ⟨hb, fun j => ?_⟩
    obtain ⟨c, q, rfl⟩ := exists_chunkRow j
    match c with
    | ⟨0, _⟩ => exact h0 q
    | ⟨1, _⟩ => exact h1 q
    | ⟨2, _⟩ => exact h2 q
    | ⟨3, _⟩ => exact h3 q
    | ⟨4, _⟩ => exact h4 q
    | ⟨5, _⟩ => exact h5 q
    | ⟨6, _⟩ => exact h6 q
    | ⟨7, _⟩ => exact h7 q
  · rintro ⟨hb, h⟩
    exact ⟨⟨⟨⟨⟨⟨⟨⟨hb, hb, fun q => h _⟩, hb, fun q => h _⟩, hb, fun q => h _⟩, hb, fun q => h _⟩, hb, fun q => h _⟩,
      hb, fun q => h _⟩, hb, fun q => h _⟩, hb, fun q => h _⟩

/-- What the kernel leaves for one anchor row: the hinge over its running minimum. -/
def hingeK (a p : Row) (r0 r1 r2 r3 r4 r5 r6 r7 : Rows 1024) : EReal :=
  max ((rowDist a p - runMin a r0 r1 r2 r3 r4 r5 r6 r7) + c1) c0

theorem hingeK_eq (a p : Row) (P : Rows 8192) (r0 r1 r2 r3 r4 r5 r6 r7 : Rows 1024)
    (e0 : ∀ q, r0 q = P (chunkRow 0 q)) (e1 : ∀ q, r1 q = P (chunkRow 1 q)) (e2 : ∀ q, r2 q = P (chunkRow 2 q))
    (e3 : ∀ q, r3 q = P (chunkRow 3 q)) (e4 : ∀ q, r4 q = P (chunkRow 4 q)) (e5 : ∀ q, r5 q = P (chunkRow 5 q))
    (e6 : ∀ q, r6 q = P (chunkRow 6 q)) (e7 : ∀ q, r7 q = P (chunkRow 7 q)) :
    hingeK a p r0 r1 r2 r3 r4 r5 r6 r7 = hingeRow a p P := by
  unfold hingeK hingeRow
  rw [runMin_eq a P r0 r1 r2 r3 r4 r5 r6 r7 e0 e1 e2 e3 e4 e5 e6 e7]

/-! ## The two halves of the input -/

/-- The anchor rows: rows 0 … 8191 of the [16384, 128] input. -/
def anchorRows (X : (⟨2, ![16384, 128]⟩ : Shape).Idx → EReal) : Rows 8192 :=
  fun i k => X (ValueIdx.ix2 (⟨i.val, by have := i.isLt; omega⟩ : Fin 16384) k)

/-- The positive rows: rows 8192 … 16383. -/
def positiveRows (X : (⟨2, ![16384, 128]⟩ : Shape).Idx → EReal) : Rows 8192 :=
  fun i k => X (ValueIdx.ix2 (⟨8192 + i.val, by have := i.isLt; omega⟩ : Fin 16384) k)

end Triplet

end
-- ==== Proof.RefLoss.lean ====
import proofs.«179339_j30717606101531_1_alg».proof.Proof.Gen.ReferenceIdeal.Read
import proofs.«179339_j30717606101531_1_alg».proof.Proof.TripletSpec

noncomputable section
open Idealize.ShloMosaic Idealize.ShloMosaic.TcCoe Idealize.SL.Sem

namespace Cert.ReferenceIdeal.RefLoss
open Cert.ReferenceIdeal Cert.ReferenceIdeal.Gen Cert.ReferenceIdeal.Read

/-! The reference, read one element at a time, against the specification's row functions. Throughout, `i` is an anchor
    row, `j` a positive row and `k` a feature; an index is always written by its coordinates. -/

section Stages

variable (X : (⟨S16384x128, .f32⟩ : BufTy).Contents (Elt Ideal))

/-- The first slice holds the anchor rows. -/
theorem v0_at (i : Fin 8192) (k : Fin 128) :
    (val_main_v0 (F := Ideal) X : S8192x128.Idx → EReal) (ValueIdx.ix2 i k)
      = Triplet.anchorRows (X : S16384x128.Idx → EReal) i k := by
  refine (val_main_v0_apply (F := Ideal) X _).trans ?_
  unfold Triplet.anchorRows
  exact congrArg (X : S16384x128.Idx → EReal)
    (funext fun a => Fin.ext (by match a with | ⟨0, _⟩ => rfl | ⟨1, _⟩ => rfl))

/-- The second slice holds the positive rows. -/
theorem v1_at (j : Fin 8192) (k : Fin 128) :
    (val_main_v1 (F := Ideal) X : S8192x128.Idx → EReal) (ValueIdx.ix2 j k)
      = Triplet.positiveRows (X : S16384x128.Idx → EReal) j k := by
  refine (val_main_v1_apply (F := Ideal) X _).trans ?_
  unfold Triplet.positiveRows
  exact congrArg (X : S16384x128.Idx → EReal)
    (funext fun a => Fin.ext (by match a with | ⟨0, _⟩ => rfl | ⟨1, _⟩ => rfl))

/-- ‖a_i‖²: the row sum of the anchor half's squares, from 0.0. -/
theorem v5_at (i : Fin 8192) :
    (val_main_v5 (F := Ideal) X : S8192.Idx → EReal) (ValueIdx.ix1 i)
      = Triplet.sqn (Triplet.anchorRows (X : S16384x128.Idx → EReal) i) := by
  refine (val_main_v5_apply X _).trans ?_
  unfold Triplet.sqn
  refine (congrArg (· + _) Ideal.ofBits_zero_f32).trans ((zero_add _).trans ?_)
  refine Finset.sum_congr rfl fun k _ => ?_
  have e : idx_main_v5 (ValueIdx.ix1 i) k = ValueIdx.ix2 i k :=
    funext fun a => Fin.ext (by match a with | ⟨0, _⟩ => rfl | ⟨1, _⟩ => rfl)
  refine (congrArg (val_main_v4 (F := Ideal) X) e).trans ?_
  exact congrArg₂ (· * ·) (v0_at X i k) (v0_at X i k)

/-- ‖p_j‖²: the row sum of the positive half's squares, from 0.0. -/
theorem v7_at (j : Fin 8192) :
    (val_main_v7 (F := Ideal) X : S8192.Idx → EReal) (ValueIdx.ix1 j)
      = Triplet.sqn (Triplet.positiveRows (X : S16384x128.Idx → EReal) j) := by
  refine (val_main_v7_apply X _).trans ?_
  unfold Triplet.sqn
  refine (congrArg (· + _) Ideal.ofBits_zero_f32).trans ((zero_add _).trans ?_)
  refine Finset.sum_congr rfl fun k _ => ?_
  have e : idx_main_v7 (ValueIdx.ix1 j) k = ValueIdx.ix2 j k :=
    funext fun a => Fin.ext (by match a with | ⟨0, _⟩ => rfl | ⟨1, _⟩ => rfl)
  refine (congrArg (val_main_v6 (F := Ideal) X) e).trans ?_
  exact congrArg₂ (· * ·) (v1_at X j k) (v1_at X j k)

/-- a_i · p_j: the product with the transposed positive half, entry (i, j). -/
theorem v9_at (i j : Fin 8192) :
    (val_main_v9 (F := Ideal) X : S8192x8192.Idx → EReal) (ValueIdx.ix2 i j)
      = ∑ k, Triplet.anchorRows (X : S16384x128.Idx → EReal) i k * Triplet.positiveRows (X : S16384x128.Idx → EReal) j k := by
  refine (val_main_v9_apply X _).trans ?_
  refine Finset.sum_congr rfl fun k _ => ?_
  have el : lidx_main_v9 (ValueIdx.ix2 i j) k = ValueIdx.ix2 i k :=
    funext fun a => Fin.ext (by match a with | ⟨0, _⟩ => rfl | ⟨1, _⟩ => rfl)
  have er : idx_main_v8 (ridx_main_v9 (ValueIdx.ix2 i j) k) = ValueIdx.ix2 j k :=
    funext fun a => Fin.ext (by match a with | ⟨0, _⟩ => rfl | ⟨1, _⟩ => rfl)
  refine congrArg₂ (· * ·) ((congrArg (val_main_v0 (F := Ideal) X) el).trans (v0_at X i k)) ?_
  refine (val_main_v8_apply X _).trans ?_
  exact (congrArg (val_main_v1 (F := Ideal) X) er).trans (v1_at X j k)

/-- The clamped Gram-trick distance, entry (i, j). -/
theorem v20_at (i j : Fin 8192) :
    (val_main_v20 (F := Ideal) X : S8192x8192.Idx → EReal) (ValueIdx.ix2 i j)
      = Triplet.gram (Triplet.anchorRows (X : S16384x128.Idx → EReal) i) (Triplet.positiveRows (X : S16384x128.Idx → EReal) j) := by
  have e12 : (val_main_v12 (F := Ideal) X : S8192x8192.Idx → EReal) (ValueIdx.ix2 i j)
      = Triplet.sqn (Triplet.anchorRows (X : S16384x128.Idx → EReal) i) := by
    refine (val_main_v12_apply X _).trans ((val_main_v10_apply X _).trans ?_)
    refine (congrArg (val_main_v5 (F := Ideal) X) (?_ : _ = ValueIdx.ix1 i)).trans (v5_at X i)
    exact funext fun a => Fin.ext (by match a with | ⟨0, _⟩ => rfl)
  have e13 : (val_main_v13 (F := Ideal) X : S8192x8192.Idx → EReal) (ValueIdx.ix2 i j)
      = Triplet.sqn (Triplet.positiveRows (X : S16384x128.Idx → EReal) j) := by
    refine (val_main_v13_apply X _).trans ((val_main_v11_apply X _).trans ?_)
    refine (congrArg (val_main_v7 (F := Ideal) X) (?_ : _ = ValueIdx.ix1 j)).trans (v7_at X j)
    exact funext fun a => Fin.ext (by match a with | ⟨0, _⟩ => rfl)
  have e15 : (val_main_v15 (F := Ideal) : S8192x8192.Idx → EReal) (ValueIdx.ix2 i j) = Triplet.c2 :=
    val_main_v15_apply _
  have e18 : (val_main_v18 (F := Ideal) : S8192x8192.Idx → EReal) (ValueIdx.ix2 i j) = Triplet.c0 :=
    val_main_v18_apply _
  unfold Triplet.gram
  show Ideal.sqrt (max
      (((val_main_v12 (F := Ideal) X : S8192x8192.Idx → EReal) (ValueIdx.ix2 i j)
          + (val_main_v13 (F := Ideal) X : S8192x8192.Idx → EReal) (ValueIdx.ix2 i j))
        - ((val_main_v15 (F := Ideal) : S8192x8192.Idx → EReal) (ValueIdx.ix2 i j)
          * (val_main_v9 (F := Ideal) X : S8192x8192.Idx → EReal) (ValueIdx.ix2 i j)))
      ((val_main_v18 (F := Ideal) : S8192x8192.Idx → EReal) (ValueIdx.ix2 i j))) = _
  rw [e12, e13, e15, e18, v9_at X i j]

/-- Row i of the [8192, 8192] index set with its column put back: (i, j). -/
theorem lift_row (h : S8192x8192.Reduces [1] S8192) (i j : Fin 8192) :
    h.lift (ValueIdx.ix1 i) j = ValueIdx.ix2 i j :=
  funext fun a => Fin.ext (by match a with | ⟨0, _⟩ => rfl | ⟨1, _⟩ => rfl)

/-- The minimum along the columns, at row i: the fold of `min` over that row's entries, from the initial value. -/
theorem rowMin (x : S8192x8192.Idx → Ideal .f32) (init : S_.Idx → Ideal .f32) (h' : S8192x8192.ReducesTo [1] S8192)
    (hu : 0 < S_.numel) (i : Fin 8192) :
    Host.reduce (FloatOps.minimumf (F := Ideal) (φ := .f32)) x init h' hu (ValueIdx.ix1 i)
      = (Finset.univ : Finset (Fin 8192)).fold min (init (Shape.Idx.first hu)) (fun j => x (ValueIdx.ix2 i j)) := by
  have h : S8192x8192.Reduces [1] S8192 := by decide
  refine (Host.reduce_eq_fold_single (FloatOps.minimumf (F := Ideal) (φ := .f32)) x init h' h hu (ValueIdx.ix1 i)).trans ?_
  exact Finset.fold_congr fun j _ => congrArg x (lift_row h i j)

/-- The nearest positive row: the minimum of row i of the distance matrix, from +∞. -/
theorem v21_at (i : Fin 8192) :
    (val_main_v21 (F := Ideal) X : S8192.Idx → EReal) (ValueIdx.ix1 i)
      = Triplet.nearest (Triplet.anchorRows (X : S16384x128.Idx → EReal) i) (Triplet.positiveRows (X : S16384x128.Idx → EReal)) := by
  unfold Triplet.nearest
  refine (rowMin (val_main_v20 (F := Ideal) X) (val_main_cst_3 (F := Ideal)) reducesTo_S8192x8192_S8192_d1 h_S_ i).trans ?_
  exact Finset.fold_congr fun j _ => v20_at X i j

/-- ‖a_i − p_i‖: the root of the row sum of the squared differences, from 0.0. -/
theorem v3_at (i : Fin 8192) :
    (val_main_v3 (F := Ideal) X : S8192.Idx → EReal) (ValueIdx.ix1 i)
      = Triplet.rowDist (Triplet.anchorRows (X : S16384x128.Idx → EReal) i) (Triplet.positiveRows (X : S16384x128.Idx → EReal) i) := by
  unfold Triplet.rowDist
  show Ideal.sqrt ((val_main_call0_v1 (F := Ideal) X : S8192.Idx → EReal) (ValueIdx.ix1 i)) = _
  refine congrArg Ideal.sqrt ?_
  refine (val_main_call0_v1_apply X _).trans ?_
  refine (congrArg (· + _) Ideal.ofBits_zero_f32).trans ((zero_add _).trans ?_)
  refine Finset.sum_congr rfl fun k _ => ?_
  have e : idx_main_call0_v1 (ValueIdx.ix1 i) k = ValueIdx.ix2 i k :=
    funext fun a => Fin.ext (by match a with | ⟨0, _⟩ => rfl | ⟨1, _⟩ => rfl)
  refine (congrArg (val_main_call0_v0 (F := Ideal) X) e).trans ?_
  have d : (val_main_v2 (F := Ideal) X : S8192x128.Idx → EReal) (ValueIdx.ix2 i k)
      = Triplet.anchorRows (X : S16384x128.Idx → EReal) i k - Triplet.positiveRows (X : S16384x128.Idx → EReal) i k :=
    congrArg₂ (· - ·) (v0_at X i k) (v1_at X i k)
  exact congrArg₂ (· * ·) d d

/-- The hinge of anchor row i. -/
theorem v25_at (i : Fin 8192) :
    (val_main_v25 (F := Ideal) X : S8192.Idx → EReal) (ValueIdx.ix1 i)
      = Triplet.hingeRow (Triplet.anchorRows (X : S16384x128.Idx → EReal) i) (Triplet.positiveRows (X : S16384x128.Idx → EReal) i)
          (Triplet.positiveRows (X : S16384x128.Idx → EReal)) := by
  have e23 : (val_main_v23 (F := Ideal) : S8192.Idx → EReal) (ValueIdx.ix1 i) = Triplet.c1 := val_main_v23_apply _
  have e0 : (val_main_call1_v0 (F := Ideal) : S8192.Idx → EReal) (ValueIdx.ix1 i) = Triplet.c0 := val_main_call1_v0_apply _
  unfold Triplet.hingeRow
  show max ((((val_main_v3 (F := Ideal) X : S8192.Idx → EReal) (ValueIdx.ix1 i)
        - (val_main_v21 (F := Ideal) X : S8192.Idx → EReal) (ValueIdx.ix1 i))
      + (val_main_v23 (F := Ideal) : S8192.Idx → EReal) (ValueIdx.ix1 i)))
    ((val_main_call1_v0 (F := Ideal) : S8192.Idx → EReal) (ValueIdx.ix1 i)) = _
  rw [v3_at X i, v21_at X i, e23, e0]

end Stages

/-- A rank-1 index is its coordinate. -/
def rowEquiv : Fin 8192 ≃ S8192.Idx where
  toFun := ValueIdx.ix1
  invFun j := j 0
  left_inv _ := rfl
  right_inv j := (ValueIdx.eq_ix1 j).symm

/-- The reference's result is the specification's loss of the two halves of the input: the mean, from 0.0 and over
    8192.0, of the rows' hinges. -/
theorem ref_loss (X : (⟨S16384x128, .f32⟩ : BufTy).Contents (Elt Ideal)) :
    (val_main_v27 (F := Ideal) X : S_.Idx → EReal)
      = fun _ => Triplet.loss (Triplet.anchorRows (X : S16384x128.Idx → EReal)) (Triplet.positiveRows (X : S16384x128.Idx → EReal)) := by
  funext i0
  unfold Triplet.loss
  show Ideal.div ((val_main_v26 (F := Ideal) X : S_.Idx → EReal) i0) Triplet.cN = _
  refine congrArg (fun t => Ideal.div t Triplet.cN) ?_
  refine (val_main_v26_apply X i0).trans ?_
  refine congrArg (Triplet.c0 + ·) ?_
  refine (Equiv.sum_comp rowEquiv (val_main_v25 (F := Ideal) X : S8192.Idx → EReal)).symm.trans ?_
  exact Finset.sum_congr rfl fun i _ => v25_at X i

end Cert.ReferenceIdeal.RefLoss
end
-- ==== Proof.KernelRow.lean ====
/-
  The kernel body's arithmetic at one output row `p`, read at the extended reals.

  The body keeps the anchor block `x0` (its copy `v2`, equal to it), the row `v6` of the anchor rows' squared norms
  (`v6 (0, p) = ‖x0_p‖²`), and the column of distances to the positive block on the diagonal
  (`√ ∑ₖ (x0 (p, k) − d (p, k))²` at `(p, 0)`). Each of the eight chunks `v` of positive rows then takes one STEP on a
  running row: the matrix of clamped distances, entry `(q, p) = √ max ((‖v_q‖² + ‖x0_p‖²) − 2 · ∑ₖ v (q, k) · x0 (p, k)) 0`
  (the product contracts both operands on their feature axis: entry `(q, p)` of it is `∑ₖ v (q, k) · x0 (p, k)`), its column
  minima from +∞ (a fold of `min` over `q`), and the minimum of those with the running row. Read at `(0, p)` a step
  gives `min (run (0, p)) (Triplet.blockMin x0_p v)` (`chunkStep_row`); eight steps from the +∞ row give
  `Triplet.runMin`, and the last lines, `max ((pos − nearest) + 1) 0` at `(p, 0)`, give `Triplet.hingeK`. Every
  operation is read at a symbolic index; no algebra is used, the target being written in the body's operand order.
-/
import proofs.«179339_j30717606101531_1_alg».proof.Proof.Gen.KernelIdeal.Skeleton
import proofs.«179339_j30717606101531_1_alg».proof.Proof.TripletSpec
import Idealize.ShloMosaic.Lib.Pipeline.Value
import Idealize.ShloMosaic.Lib.ValueLayout
import Idealize.ShloMosaic.PureOps.Ideal.Laws

noncomputable section
open Idealize.ShloMosaic Idealize.ShloMosaic.TcCoe Idealize.SL.Sem

namespace Cert.KernelIdeal.RowValue
open Cert.KernelIdeal Cert.KernelIdeal.Gen

open Idealize.ShloMosaic.ValueIdx

/-! ## Indices -/

/-- The source index of a row sum: row `q` with coordinate `k` put back on axis 1. -/
theorem lift_row (q : Fin 1024) (k : Fin 128) :
    reduces_S1024x128_S1024.lift (ix1 q) k = ix2 q k :=
  funext fun a => Fin.ext (match a with | ⟨0, _⟩ => rfl | ⟨1, _⟩ => rfl)

/-- The source index of a column minimum: column `p` with coordinate `q` put back on axis 0. -/
theorem lift_col (p : Fin 1024) (q : Fin 1024) :
    reduces_S1024x1024_S1024.lift (ix1 p) q = ix2 q p :=
  funext fun a => Fin.ext (match a with | ⟨0, _⟩ => rfl | ⟨1, _⟩ => rfl)

/-- A column `[1024, 1]` broadcast along the rows of `[1024, 1024]` reads, at `(q, p)`, the column at `q`. -/
theorem bcastCol_apply {α : Type} (x : S1024x1.Idx → α) (q p : Fin 1024) :
    broadcastTo S1024x1024 x broadcasts_S1024x1_S1024x1024 (ix2 q p) = x (ix2 q (0 : Fin 1)) :=
  broadcastTo_apply x broadcasts_S1024x1_S1024x1024 (ix2 q p) (ix2 q (0 : Fin 1)) fun a =>
    match a with
    | ⟨0, _⟩ => rfl
    | ⟨1, _⟩ => rfl

/-- A vector `[1024]` cast to a column `[1024, 1]` reads, at `(q, 0)`, the vector at `q`. -/
theorem castCol_apply {α : Type} (x : S1024.Idx → α) (q : Fin 1024) :
    shapeCast S1024x1 x shapeCasts_S1024_S1024x1 (ix2 q (0 : Fin 1)) = x (ix1 q) := by
  refine shapeCast_apply x shapeCasts_S1024_S1024x1 (ix2 q (0 : Fin 1)) (ix1 q) ?_
  rw [Shape.rowMajor_val_one, Shape.rowMajor_val_two]
  show q.val = q.val * 1 + 0
  omega

/-! ## The squared norm of a row -/

/-- Square, sum along the row, cast to a column: at `(q, 0)` the squared norm of row `q`. -/
theorem sqCol_apply (w : FVec Ideal S1024x128 .f32) (q : Fin 1024) :
    shapeCast S1024x1 (multiReduction .add [1] S1024 (mulf w w) 0x00000000#32 reduces_S1024x128_S1024 (.inl rfl) rfl)
      shapeCasts_S1024_S1024x1 (ix2 q (0 : Fin 1)) = Triplet.sqn (Triplet.rowsOf w q) := by
  refine (castCol_apply _ q).trans ?_
  refine (Ideal.multiReduction_add_single (mulf w w) _ reduces_S1024x128_S1024 _ _ (ix1 q)).trans ?_
  exact Finset.sum_congr rfl fun k _ => congrArg (fun i => w i * w i) (lift_row q k)

/-! ## The product of a chunk against the anchor block -/

theorem lhs_ax0 (i : S1024x1024.Idx) (c : dot_S1024x128_S1024x128_S1024x1024_1_1_0_0_n_n.contr.Idx) :
    (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl

theorem lhs_ax1 (i : S1024x1024.Idx) (c : dot_S1024x128_S1024x128_S1024x1024_1_1_0_0_n_n.contr.Idx) :
    (dot_S1024x128_S1024x128_S1024x1024_1_1_0_0_n_n.lhsIdx i c 1).val = (c ⟨0, by decide⟩).val :=
  dot_S1024x128_S1024x128_S1024x1024_1_1_0_0_n_n.lhsIdx_val_of_single rfl i c

theorem rhs_ax0 (i : S1024x1024.Idx) (c : dot_S1024x128_S1024x128_S1024x1024_1_1_0_0_n_n.contr.Idx) :
    (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

theorem rhs_ax1 (i : S1024x1024.Idx) (c : dot_S1024x128_S1024x128_S1024x1024_1_1_0_0_n_n.contr.Idx) :
    (dot_S1024x128_S1024x128_S1024x1024_1_1_0_0_n_n.rhsIdx i c 1).val = (c ⟨0, by decide⟩).val :=
  dot_S1024x128_S1024x128_S1024x1024_1_1_0_0_n_n.rhsIdx_val_of_single rfl i c

/-- Both operands contract on their feature axis: entry `(q, p)` of the product into the zero splat is
    `∑ₖ a (q, k) · b (p, k)`. -/
theorem prod_apply (a b : FVec Ideal S1024x128 .bf16) (q p : Fin 1024) :
    matmul (F := Ideal) dot_S1024x128_S1024x128_S1024x1024_1_1_0_0_n_n none a b (constant S1024x1024 .f32 0x00000000#32) (ix2 q p)
      = ∑ k : Fin 128, a (ix2 q k) * b (ix2 p k) := by
  refine (Ideal.matmul_constant_zero_apply dot_S1024x128_S1024x128_S1024x1024_1_1_0_0_n_n none a b (ix2 q p)).trans ?_
  rw [← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 q p) ((ValueIdx.contrEquiv1 dot_S1024x128_S1024x128_S1024x1024_1_1_0_0_n_n 128 rfl rfl).symm k) = ix2 q k :=
    funext fun a => Fin.ext (by
      match a with
      | ⟨0, _⟩ => exact lhs_ax0 _ _
      | ⟨1, _⟩ => exact (lhs_ax1 _ _).trans hk)
  have er : dot_S1024x128_S1024x128_S1024x1024_1_1_0_0_n_n.rhsIdx (ix2 q p) ((ValueIdx.contrEquiv1 dot_S1024x128_S1024x128_S1024x1024_1_1_0_0_n_n 128 rfl rfl).symm k) = ix2 p k :=
    funext fun a => Fin.ext (by
      match a with
      | ⟨0, _⟩ => exact rhs_ax0 _ _
      | ⟨1, _⟩ => exact (rhs_ax1 _ _).trans hk)
  rw [el, er]

/-! ## One chunk's step -/

/-- The clamped distances of a chunk `w` against the anchor block, given the block's copy `v2` and the row `v6` of
    its squared norms: entry `(q, p)` is `√ max ((‖w_q‖² + v6_p) − 2 · ∑ₖ w (q, k) · v2 (p, k)) 0`. -/
def distBlock (v2 : FVec Ideal S1024x128 .bf16) (v6 : FVec Ideal S1x1024 .f32) (w : FVec Ideal S1024x128 .f32) :
    FVec Ideal S1024x1024 .f32 :=
  sqrt (maximumf
    (subf
      (addf
        (broadcastTo S1024x1024
          (shapeCast S1024x1
            (multiReduction .add [1] S1024 (mulf w w) 0x00000000#32 reduces_S1024x128_S1024 (.inl rfl) rfl)
            shapeCasts_S1024_S1024x1)
          broadcasts_S1024x1_S1024x1024)
        (broadcastTo S1024x1024 v6 broadcasts_S1x1024_S1024x1024))
      (mulf (broadcast S1024x1024 (Scalar.ofBits (F := Ideal) .f32 0x40000000#32))
        (matmul dot_S1024x128_S1024x128_S1024x1024_1_1_0_0_n_n none (truncf .bf16 w bitsLt_bf16_f32) v2
          (constant S1024x1024 .f32 0x00000000#32))))
    (broadcast S1024x1024 (Scalar.ofBits (F := Ideal) .f32 0x00000000#32)))

theorem distBlock_apply (v2 : FVec Ideal S1024x128 .bf16) (v6 : FVec Ideal S1x1024 .f32) (w : FVec Ideal S1024x128 .f32)
    (q p : Fin 1024) :
    distBlock v2 v6 w (ix2 q p)
      = Ideal.sqrt (max ((Triplet.sqn (Triplet.rowsOf w q) + v6 (ix2 (0 : Fin 1) p))
          - Triplet.c2 * ∑ k : Fin 128, w (ix2 q k) * v2 (ix2 p k)) Triplet.c0) := by
  have A := (bcastCol_apply (shapeCast S1024x1
      (multiReduction .add [1] S1024 (mulf w w) 0x00000000#32 reduces_S1024x128_S1024 (.inl rfl) rfl)
      shapeCasts_S1024_S1024x1) q p).trans (sqCol_apply w q)
  have B := broadcastTo_1b_ab_apply v6 broadcasts_S1x1024_S1024x1024 q p
  have C := prod_apply (truncf .bf16 w bitsLt_bf16_f32) v2 q p
  exact congrArg Ideal.sqrt (congrArg (max · Triplet.c0)
    (congrArg₂ (· - ·) (congrArg₂ (· + ·) A B) (congrArg (Triplet.c2 * ·) C)))

/-- A chunk's step on the running minimum: the column minima of the chunk's distances, from +∞, as a row, and the
    minimum of that row with the running one. -/
def chunkStep (v2 : FVec Ideal S1024x128 .bf16) (v6 run : FVec Ideal S1x1024 .f32) (w : FVec Ideal S1024x128 .f32) :
    FVec Ideal S1x1024 .f32 :=
  minimumf run (shapeCast S1x1024
    (multiReduction .minimumf [0] S1024 (distBlock v2 v6 w) 0x7F800000#32 reduces_S1024x1024_S1024 (.inl rfl) rfl)
    shapeCasts_S1024_S1x1024)

/-- At column `p` a chunk's step leaves the minimum of the running value and the chunk's own minimum for anchor row
    `p`, when `v2` holds the anchor block and `v6` its squared norms. -/
theorem chunkStep_row (x0 : Vec Ideal S1024x128 .f32) (v2 : FVec Ideal S1024x128 .bf16) (v6 : FVec Ideal S1x1024 .f32)
    (hv2 : ∀ (p : Fin 1024) (k : Fin 128), v2 (ix2 p k) = x0 (ix2 p k))
    (hv6 : ∀ p : Fin 1024, v6 (ix2 (0 : Fin 1) p) = Triplet.sqn (Triplet.rowsOf x0 p))
    (run : FVec Ideal S1x1024 .f32) (w : FVec Ideal S1024x128 .f32) (p : Fin 1024) :
    chunkStep v2 v6 run w (ix2 (0 : Fin 1) p)
      = min (run (ix2 (0 : Fin 1) p)) (Triplet.blockMin (Triplet.rowsOf x0 p) (Triplet.rowsOf w)) := by
  show min (run (ix2 (0 : Fin 1) p)) (shapeCast S1x1024
    (multiReduction .minimumf [0] S1024 (distBlock v2 v6 w) 0x7F800000#32 reduces_S1024x1024_S1024 (.inl rfl) rfl)
    shapeCasts_S1024_S1x1024 (ix2 (0 : Fin 1) p)) = _
  refine congrArg (min (run (ix2 (0 : Fin 1) p))) ?_
  refine (shapeCast_a_1a_apply _ shapeCasts_S1024_S1x1024 (0 : Fin 1) p).trans ?_
  refine (multiReduction_minimumf_eq_fold (F := Ideal) (distBlock v2 v6 w) _ reduces_S1024x1024_S1024 _ _ (ix1 p)).trans ?_
  refine (reduces_S1024x1024_S1024.fold_filter_drop_single _ _ (distBlock v2 v6 w) (ix1 p)).trans ?_
  show (Finset.univ : Finset (Fin 1024)).fold min Triplet.cInf
      (fun q => distBlock v2 v6 w (reduces_S1024x1024_S1024.lift (ix1 p) q))
    = (Finset.univ : Finset (Fin 1024)).fold min Triplet.cInf
      (fun q => Triplet.gramK (Triplet.rowsOf x0 p) (Triplet.rowsOf w q))
  refine Finset.fold_congr fun q _ => ?_
  refine (congrArg (distBlock v2 v6 w) (lift_col p q)).trans ?_
  refine (distBlock_apply v2 v6 w q p).trans ?_
  unfold Triplet.gramK
  rw [hv6 p]
  refine congrArg Ideal.sqrt (congrArg (max · Triplet.c0) (congrArg ((Triplet.sqn (Triplet.rowsOf w q) + Triplet.sqn (Triplet.rowsOf x0 p)) - Triplet.c2 * ·)
    (Finset.sum_congr rfl fun k _ => ?_)))
  rw [hv2 p k]
  rfl

/-- The same with the chunk behind its (identity) shape cast, as the kernel passes it. -/
theorem chunkStep_cast_row (x0 : Vec Ideal S1024x128 .f32) (v2 : FVec Ideal S1024x128 .bf16) (v6 : FVec Ideal S1x1024 .f32)
    (hv2 : ∀ (p : Fin 1024) (k : Fin 128), v2 (ix2 p k) = x0 (ix2 p k))
    (hv6 : ∀ p : Fin 1024, v6 (ix2 (0 : Fin 1) p) = Triplet.sqn (Triplet.rowsOf x0 p))
    (run : FVec Ideal S1x1024 .f32) (v : Vec Ideal S1024x128 .f32) (p : Fin 1024) :
    chunkStep v2 v6 run (shapeCast S1024x128 v shapeCasts_S1024x128_S1024x128) (ix2 (0 : Fin 1) p)
      = min (run (ix2 (0 : Fin 1) p)) (Triplet.blockMin (Triplet.rowsOf x0 p) (Triplet.rowsOf v)) := by
  rw [shapeCast_self v shapeCasts_S1024x128_S1024x128]
  exact chunkStep_row x0 v2 v6 hv2 hv6 run v p

/-! ## The kernel's values are these steps -/

theorem pay6_eq (x0 v : Vec Ideal S1024x128 .f32) :
    k0_pay6 (F := Ideal) x0 v
      = chunkStep (k0_pay3 x0) (k0_pay4 x0) (broadcast S1x1024 (Scalar.ofBits (F := Ideal) .f32 0x7F800000#32))
          (shapeCast S1024x128 v shapeCasts_S1024x128_S1024x128) := rfl

theorem pay7_eq (v2 : FVec Ideal S1024x128 .bf16) (v6 run : FVec Ideal S1x1024 .f32) (a b : Vec Ideal S1024x128 .f32) :
    k0_pay7 (F := Ideal) v2 v6 run a b
      = chunkStep v2 v6 (chunkStep v2 v6 run (shapeCast S1024x128 a shapeCasts_S1024x128_S1024x128)) (shapeCast S1024x128 b shapeCasts_S1024x128_S1024x128) := rfl

theorem pay8_eq (v2 : FVec Ideal S1024x128 .bf16) (v6 run : FVec Ideal S1x1024 .f32) (a b : Vec Ideal S1024x128 .f32) :
    k0_pay8 (F := Ideal) v2 v6 run a b
      = chunkStep v2 v6 (chunkStep v2 v6 run (shapeCast S1024x128 a shapeCasts_S1024x128_S1024x128)) (shapeCast S1024x128 b shapeCasts_S1024x128_S1024x128) := rfl

theorem pay9_eq (v2 : FVec Ideal S1024x128 .bf16) (v6 run : FVec Ideal S1x1024 .f32) (a b : Vec Ideal S1024x128 .f32) :
    k0_pay9 (F := Ideal) v2 v6 run a b
      = chunkStep v2 v6 (chunkStep v2 v6 run (shapeCast S1024x128 a shapeCasts_S1024x128_S1024x128)) (shapeCast S1024x128 b shapeCasts_S1024x128_S1024x128) := rfl

theorem pay1_eq (v2 : FVec Ideal S1024x128 .bf16) (v6 : FVec Ideal S1x1024 .f32) (v16 : FVec Ideal S1024x1 .f32)
    (run : FVec Ideal S1x1024 .f32) (v : Vec Ideal S1024x128 .f32) :
    k0_pay1 (F := Ideal) v2 v6 v16 run v
      = maximumf
          (addf
            (subf v16 (transpose S1024x1 [1, 0] (chunkStep v2 v6 run (shapeCast S1024x128 v shapeCasts_S1024x128_S1024x128))
              transposes_S1x1024_p1_0_S1024x1))
            (broadcast S1024x1 (Scalar.ofBits (F := Ideal) .f32 0x3F800000#32)))
          (broadcast S1024x1 (Scalar.ofBits (F := Ideal) .f32 0x00000000#32)) := rfl

/-! ## The anchor block's own values -/

theorem pay2_eq (x0 : Vec Ideal S1024x128 .f32) : k0_pay2 (F := Ideal) x0 = x0 :=
  shapeCast_self x0 shapeCasts_S1024x128_S1024x128

/-- The anchor block's bf16 copy is the block. -/
theorem copy_row (x0 : Vec Ideal S1024x128 .f32) (p : Fin 1024) (k : Fin 128) :
    k0_pay3 (F := Ideal) x0 (ix2 p k) = x0 (ix2 p k) :=
  congrFun (pay2_eq x0) (ix2 p k)

/-- The row of squared norms: at `(0, p)` it is `‖x0_p‖²`. -/
theorem sq_row (x0 : Vec Ideal S1024x128 .f32) (p : Fin 1024) :
    k0_pay4 (F := Ideal) x0 (ix2 (0 : Fin 1) p) = Triplet.sqn (Triplet.rowsOf x0 p) := by
  unfold k0_pay4
  rw [pay2_eq]
  refine (transpose_ix2_apply _ transposes_S1024x1_p1_0_S1x1024 (0 : Fin 1) p).trans ?_
  exact sqCol_apply x0 p

/-- The distance of each anchor row to its own positive row: at `(p, 0)`. -/
theorem pos_row (x0 d : Vec Ideal S1024x128 .f32) (p : Fin 1024) :
    k0_pay5 (F := Ideal) x0 d (ix2 p (0 : Fin 1))
      = Triplet.rowDist (Triplet.rowsOf x0 p) (Triplet.rowsOf d p) := by
  unfold k0_pay5
  rw [pay2_eq, shapeCast_self d shapeCasts_S1024x128_S1024x128]
  exact congrArg Ideal.sqrt (sqCol_apply (subf x0 d) p)

/-! ## One output row -/

theorem min_left {a b c : EReal} (h : a = b) : min a c = min b c := congrArg (fun x => min x c) h

theorem pay_row (x0 d v0 v1 v2 v3 v4 v5 v6 v7 : Vec Ideal S1024x128 .f32) (p : Fin 1024) :
    (k0_pay1 (F := Ideal) (k0_pay3 x0) (k0_pay4 x0) (k0_pay5 x0 d)
      (k0_pay9 (k0_pay3 x0) (k0_pay4 x0)
        (k0_pay8 (k0_pay3 x0) (k0_pay4 x0)
          (k0_pay7 (k0_pay3 x0) (k0_pay4 x0) (k0_pay6 x0 v0) v1 v2) v3 v4) v5 v6) v7 : S1024x1.Idx → EReal)
        (ValueIdx.ix2 p (0 : Fin 1))
    = Triplet.hingeK (Triplet.rowsOf (x0 : S1024x128.Idx → EReal) p) (Triplet.rowsOf (d : S1024x128.Idx → EReal) p)
        (Triplet.rowsOf (v0 : S1024x128.Idx → EReal)) (Triplet.rowsOf (v1 : S1024x128.Idx → EReal))
        (Triplet.rowsOf (v2 : S1024x128.Idx → EReal)) (Triplet.rowsOf (v3 : S1024x128.Idx → EReal))
        (Triplet.rowsOf (v4 : S1024x128.Idx → EReal)) (Triplet.rowsOf (v5 : S1024x128.Idx → EReal))
        (Triplet.rowsOf (v6 : S1024x128.Idx → EReal)) (Triplet.rowsOf (v7 : S1024x128.Idx → EReal)) := by
  have step := chunkStep_cast_row x0 (k0_pay3 x0) (k0_pay4 x0) (copy_row x0) (sq_row x0)
  rw [pay1_eq]
  unfold Triplet.hingeK Triplet.runMin
  show max ((k0_pay5 (F := Ideal) x0 d (ix2 p (0 : Fin 1))
      - transpose S1024x1 [1, 0] _ transposes_S1x1024_p1_0_S1024x1 (ix2 p (0 : Fin 1))) + Triplet.c1) Triplet.c0 = _
  refine congrArg (max · Triplet.c0) (congrArg (· + Triplet.c1) (congrArg₂ (· - ·) (pos_row x0 d p) ?_))
  refine (transpose_ix2_apply _ transposes_S1x1024_p1_0_S1024x1 p (0 : Fin 1)).trans ?_
  refine (step _ v7 p).trans (min_left ?_)
  refine (congrFun (pay9_eq _ _ _ _ _) _).trans ?_
  refine (step _ v6 p).trans (min_left ?_)
  refine (step _ v5 p).trans (min_left ?_)
  refine (congrFun (pay8_eq _ _ _ _ _) _).trans ?_
  refine (step _ v4 p).trans (min_left ?_)
  refine (step _ v3 p).trans (min_left ?_)
  refine (congrFun (pay7_eq _ _ _ _ _) _).trans ?_
  refine (step _ v2 p).trans (min_left ?_)
  refine (step _ v1 p).trans (min_left ?_)
  refine (congrFun (pay6_eq _ _) _).trans ?_
  refine (step _ v0 p).trans (min_left ?_)
  rfl

end Cert.KernelIdeal.RowValue
end
-- ==== Proof.KernelArr.lean ====
/-
  What the kernel's output array holds after the region.

  At grid point t the body reads the anchor block (rows 1024·t … 1024·t + 1023 of the anchor array) and the WHOLE
  positive array, and stores one [1024, 1] block: at row p the hinge of anchor row 1024·t + p — its distance to positive
  row 1024·t + p (the block loaded at the point's own row offset) less its distance to the nearest positive row, taken
  as a running minimum over the eight 1024-row chunks the body loads at row offsets 0, 1024, …, 7168. A load of 1024
  rows at row offset r reads rows r … r + 1023, so the chunks are the chunks of the whole array and the running minimum
  is the minimum over all rows. The eight blocks tile the [8192, 1] output array (row r lies in block r / 1024), so the
  array ends holding, at row r, the hinge of anchor row r against all positive rows.
-/
import proofs.«179339_j30717606101531_1_alg».proof.Proof.Gen.KernelIdeal.Frame
import proofs.«179339_j30717606101531_1_alg».proof.Proof.TripletSpec
import proofs.«179339_j30717606101531_1_alg».proof.Proof.KernelRow
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The anchor array as the region finds it (the host's first slice), by rows. -/
def anc (c : Dev nD) : Triplet.Rows 8192 := Triplet.rowsOf (V m c main_v0 : S8192x128.Idx → EReal)
/-- The positive array as the region finds it (the host's second slice), by rows. -/
def posi (c : Dev nD) : Triplet.Rows 8192 := Triplet.rowsOf (V m c main_v1 : S8192x128.Idx → EReal)

/-! ## One block -/

/-- A load of 1024 rows at row offset r reads rows r … r + 1023 of the array. -/
theorem rows_ld (x1 : Vec Ideal S8192x128 .f32) (off : Fin 2 → Nat) (r : ℕ) (hoff : off = ![r, 0])
    (inb : ∀ a, off a + S1024x128.size a ≤ S8192x128.size a) (q : Fin 1024) (j : Fin 8192) (hj : j.val = r + q.val) :
    Triplet.rowsOf (View.ld x1 (Rect.unit (s := S8192x128) off S1024x128.size inb) : S1024x128.Idx → EReal) q
      = Triplet.rowsOf (x1 : S8192x128.Idx → EReal) j := by
  subst hoff
  funext k
  unfold Triplet.rowsOf
  show x1 _ = x1 _
  congr 1
  funext a
  apply Fin.ext
  match a with
  | ⟨0, _⟩ => show r + 1 * q.val = j.val; omega
  | ⟨1, _⟩ => show 0 + 1 * k.val = k.val; omega

/-- The hinge over the running minimum, with the diagonal row and the chunks named as rows of the whole array. -/
theorem hinge_of_rows (a d d' : Triplet.Row) (P : Triplet.Rows 8192) (r0 r1 r2 r3 r4 r5 r6 r7 : Triplet.Rows 1024)
    (hd : d = d')
    (e0 : ∀ q, r0 q = P (Triplet.chunkRow 0 q)) (e1 : ∀ q, r1 q = P (Triplet.chunkRow 1 q))
    (e2 : ∀ q, r2 q = P (Triplet.chunkRow 2 q)) (e3 : ∀ q, r3 q = P (Triplet.chunkRow 3 q))
    (e4 : ∀ q, r4 q = P (Triplet.chunkRow 4 q)) (e5 : ∀ q, r5 q = P (Triplet.chunkRow 5 q))
    (e6 : ∀ q, r6 q = P (Triplet.chunkRow 6 q)) (e7 : ∀ q, r7 q = P (Triplet.chunkRow 7 q)) :
    Triplet.hingeK a d r0 r1 r2 r3 r4 r5 r6 r7 = Triplet.hingeRow a d' P := by
  subst hd
  exact Triplet.hingeK_eq a d P r0 r1 r2 r3 r4 r5 r6 r7 e0 e1 e2 e3 e4 e5 e6 e7

/-- What the body leaves in the output block at grid coordinates i, at row p: the hinge of the anchor block's row p
    against positive row 1024·i + p and all positive rows. -/
theorem block_row (c : Dev nD) (i : grid0.Coords) (a1 : Memref sig .tc .vmem S1024x128 .f32) (h1 : a1.IsWhole)
    (a2 : Memref sig .tc .vmem S8192x128 .f32) (h2 : a2.IsWhole) (a3 : Memref sig .tc .vmem S1024x1 .f32) (h3 : a3.IsWhole)
    (x0 : Vec Ideal S1024x128 .f32) (x1 : Vec Ideal S8192x128 .f32) (p : Fin 1024) (j : Fin 8192)
    (hj : j.val = 1024 * (i 0).val + p.val) :
    (out0_A_2 c i a1 h1 a2 h2 a3 h3 x0 x1 : S1024x1.Idx → EReal) (ValueIdx.ix2 p (0 : Fin 1))
      = Triplet.hingeRow (Triplet.rowsOf (x0 : S1024x128.Idx → EReal) p) (Triplet.rowsOf (x1 : S8192x128.Idx → EReal) j)
          (Triplet.rowsOf (x1 : S8192x128.Idx → EReal)) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S1024x128) hz]
  refine (RowValue.pay_row _ _ _ _ _ _ _ _ _ _ p).trans ?_
  exact hinge_of_rows _ _ _ (Triplet.rowsOf (x1 : S8192x128.Idx → EReal)) _ _ _ _ _ _ _ _
    (rows_ld x1 _ (1024 * (i 0).val) (k0_off1_eq i) _ p j hj)
    (fun q => rows_ld x1 _ 0 rfl _ q _ (by show 1024 * 0 + q.val = 0 + q.val; omega))
    (fun q => rows_ld x1 _ 1024 rfl _ q _ (by show 1024 * 1 + q.val = 1024 + q.val; omega))
    (fun q => rows_ld x1 _ 2048 rfl _ q _ (by show 1024 * 2 + q.val = 2048 + q.val; omega))
    (fun q => rows_ld x1 _ 3072 rfl _ q _ (by show 1024 * 3 + q.val = 3072 + q.val; omega))
    (fun q => rows_ld x1 _ 4096 rfl _ q _ (by show 1024 * 4 + q.val = 4096 + q.val; omega))
    (fun q => rows_ld x1 _ 5120 rfl _ q _ (by show 1024 * 5 + q.val = 5120 + q.val; omega))
    (fun q => rows_ld x1 _ 6144 rfl _ q _ (by show 1024 * 6 + q.val = 6144 + q.val; omega))
    (fun q => rows_ld x1 _ 7168 rfl _ q _ (by show 1024 * 7 + q.val = 7168 + q.val; omega))

/-! ## The blocks the windows stage -/

/-- The printed index maps over the grid: point t stages anchor block t and output block t, the positive array whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ((grid0.coords t) (0 : Fin 1)).val = t.val :=
  (by decide +kernel : ∀ t : Fin grid0.N, _)

/-- The anchor block at point t and the positive window's block, at their literal types. -/
abbrev ablk (c : Dev nD) (t : Fin cfg0.N) : Vec Ideal S1024x128 .f32 := iblk m c 0 t
abbrev pblk (c : Dev nD) (t : Fin cfg0.N) : Vec Ideal S8192x128 .f32 := iblk m c 1 t

/-- Row p of the anchor block at point t is anchor row 1024·t + p. -/
theorem ablk_row (c : Dev nD) (t : Fin cfg0.N) (p : Fin 1024) (j : Fin 8192) (hj : j.val = 1024 * t.val + p.val) :
    Triplet.rowsOf (ablk m c t : S1024x128.Idx → EReal) p = anc m c j := by
  obtain ⟨e0, e1, -⟩ := idx_facts t
  funext k
  unfold anc Triplet.rowsOf ablk iblk
  rw [View.read_apply]
  show V m c main_v0 _ = V m c main_v0 _
  congr 1
  funext a
  apply Fin.ext
  match a with
  | ⟨0, _⟩ => show win0_0.index t (0 : Fin 2) * 1024 + 1 * p.val = j.val; rw [e0]; omega
  | ⟨1, _⟩ => show win0_0.index t (1 : Fin 2) * 128 + 1 * k.val = k.val; rw [e1]; omega

/-- The positive window's one block is the whole positive array. -/
theorem pblk_rows (c : Dev nD) (t : Fin cfg0.N) : Triplet.rowsOf (pblk m c t : S8192x128.Idx → EReal) = posi m c := by
  obtain ⟨-, -, e2, e3, -⟩ := idx_facts t
  funext q k
  unfold posi Triplet.rowsOf pblk iblk
  rw [View.read_apply]
  show V m c main_v1 _ = V m c main_v1 _
  congr 1
  funext a
  apply Fin.ext
  match a with
  | ⟨0, _⟩ => show win0_1.index t (0 : Fin 2) * 8192 + 1 * q.val = q.val; rw [e2]; omega
  | ⟨1, _⟩ => show win0_1.index t (1 : Fin 2) * 128 + 1 * k.val = k.val; rw [e3]; omega

/-- What the output's staging buffer holds after the body at point t, at row p: the hinge of anchor row 1024·t + p. -/
theorem outs_row (c : Dev nD) (t : Fin cfg0.N) (p : Fin 1024) (j : Fin 8192) (hj : j.val = 1024 * t.val + p.val) :
    (outsAt0 m c t : S1024x1.Idx → EReal) (ValueIdx.ix2 p (0 : Fin 1))
      = Triplet.hingeRow (anc m c j) (posi m c j) (posi m c) := by
  have hc : ((grid0.coords t) (0 : Fin 1)).val = t.val := (idx_facts t).2.2.2.2.2.2
  unfold outsAt0
  refine (block_row c (grid0.coords t) (ms0_0 t) (hs0_0 t) (ms0_1 t) (hs0_1 t) (ms0_2 t) (hs0_2 t) (ablk m c t) (pblk m c t) p j
    (by rw [hc]; exact hj)).trans ?_
  rw [ablk_row m c t p j hj, pblk_rows m c t]

/-! ## From the blocks to the array -/

/-- The same at any index of the [1024, 1] block (its second coordinate is 0). -/
theorem outs_at (c : Dev nD) (t : Fin cfg0.N) (y : S1024x1.Idx) (j : Fin 8192) (hj : j.val = 1024 * t.val + (y 0).val) :
    (outsAt0 m c t : S1024x1.Idx → EReal) y = Triplet.hingeRow (anc m c j) (posi m c j) (posi m c) := by
  obtain ⟨p, z, rfl⟩ : ∃ (p : Fin 1024) (z : Fin 1), y = ValueIdx.ix2 p z := ⟨y 0, y 1, ValueIdx.eq_ix2 y⟩
  obtain rfl : z = 0 := Subsingleton.elim _ _
  exact outs_row m c t p j hj

/-- The array's contents: at row r the hinge of anchor row r. -/
def G (c : Dev nD) : S8192x1.Idx → EReal := fun y => Triplet.hingeRow (anc m c (y 0)) (posi m c (y 0)) (posi m c)

/-- What point t writes back is block t of `G`: row p of the block is row 1024·t + p of the array. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  obtain ⟨-, -, -, -, e4, e5, -⟩ := idx_facts t
  funext y
  show (outsAt0 m c t : S1024x1.Idx → EReal) y = G m c (((cfg0.win 2).blk t).view.emb y)
  unfold G
  refine (outs_at m c t y _ ?_).trans rfl
  show win0_2.index t (0 : Fin 2) * 1024 + 1 * (y 0).val = 1024 * t.val + (y 0).val
  rw [e4]; omega

/-- An index of the array is in point t's block iff each coordinate is in the block's range on its axis. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v2).slice (win0_2.rect t)).set ↔ _
  rw [View.set_slice_whole, Rect.mem_set_unit]
  exact Iff.rfl

/-- Row r of the array lies in the block of point r / 1024, and every point writes its block back. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 8 := N_0
  have ht : (i 0).val / 1024 < cfg0.N := by rw [hN]; omega
  obtain ⟨-, -, -, -, e4, e5, -⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 1 ≤ (i 1).val
      ∧ (i 1).val < win0_2.index ⟨(i 0).val / 1024, ht⟩ (1 : Fin 2) * 1 + 1
    rw [e5]; omega

/-- The output array after the last grid point: at row r the hinge of anchor row r against all positive rows. -/
theorem final_arr (c : Dev nD) :
    ((dats m 0 c).arrAt 2 cfg0.N : S8192x1.Idx → EReal)
      = fun y => Triplet.hingeRow (anc m c (y 0)) (posi m c (y 0)) (posi m c) :=
  (dats m 0 c).arrAt_eq_of_cover 2 (G m c) (fun t _ => flushed_eq m c t) (cover)

end Cert.KernelIdeal.Arr

end
-- ==== Proof.KernelRun.lean ====
/-
  The host lines around the kernel region, and the whole run.

  Before the region the host cuts the [16384, 128] argument into its two halves: rows 0 … 8191 (the anchors) and rows
  8192 … 16383 (the positives). After it the host sums the region's [8192, 1] output over both axes from 0.0 and divides by
  8192.0. With the output's row r at the hinge of anchor row r, that quotient is the triplet loss of the two halves.
-/
import proofs.«179339_j30717606101531_1_alg».proof.Proof.KernelArr
import Idealize.ShloMosaic.Lib.StableHlo.Run
import Idealize.ShloMosaic.Lib.Pipeline.Value
import Idealize.ShloMosaic.Lib.Pipeline.Frame
import Idealize.ShloMosaic.Lib.Pipeline.FrameSuffix
import Idealize.ShloMosaic.Lib.ValueIdx
import Idealize.ShloMosaic.PureOps.Ideal
import Idealize.ShloMosaic.PureOps.Ideal.Laws

noncomputable section
open Idealize.ShloMosaic Idealize.ShloMosaic.TcCoe Idealize.SL.Sem
open Idealize.ShloMosaic.Pipeline (Dat)

namespace Cert.KernelIdeal.LossRun
open Cert.KernelIdeal Cert.KernelIdeal.Gen Cert.KernelIdeal.Arr
open Idealize.ShloMosaic.StableHlo

variable (m : (ℓ : Loc nD τ sig) → Buf (Elt Ideal) ℓ) (ρ : Dev nD → PrngReg)

/-! ## The two slices before the region -/

/-- The region finds the first slice of the argument in `main_v0`. -/
theorem V_main_v0 (c : Dev nD) :
    (V m c main_v0 : S8192x128.Idx → EReal)
      = extractStridedSlice S8192x128 ![0, 0] (m ((c.tc : Thread nD τ).loc main_arg0) : S16384x128.Idx → EReal)
          slices_S16384x128_S8192x128_0_0 := by
  show StableHlo.after hostOps0 (fun b => m (c, b)) (Proc.devRef .tc main_v0) = _
  after_results

/-- The region finds the second slice of the argument in `main_v1`. -/
theorem V_main_v1 (c : Dev nD) :
    (V m c main_v1 : S8192x128.Idx → EReal)
      = extractStridedSlice S8192x128 ![8192, 0] (m ((c.tc : Thread nD τ).loc main_arg0) : S16384x128.Idx → EReal)
          slices_S16384x128_S8192x128_8192_0 := by
  show StableHlo.after hostOps0 (fun b => m (c, b)) (Proc.devRef .tc main_v1) = _
  after_results

theorem anc_eq (c : Dev nD) : anc m c = Triplet.anchorRows (m ((c.tc : Thread nD τ).loc main_arg0) : S16384x128.Idx → EReal) := by
  funext i k
  unfold anc Triplet.rowsOf Triplet.anchorRows
  refine (congrFun (V_main_v0 m c) (ValueIdx.ix2 i k)).trans ?_
  exact extractStridedSlice_apply ![0, 0] (m ((c.tc : Thread nD τ).loc main_arg0) : S16384x128.Idx → EReal)
    slices_S16384x128_S8192x128_0_0 (ValueIdx.ix2 i k)
    (ValueIdx.ix2 (⟨i.val, by have := i.isLt; omega⟩ : Fin 16384) k) (fun a => match a with
    | ⟨0, _⟩ => by show i.val = 0 + i.val; omega
    | ⟨1, _⟩ => by show k.val = 0 + k.val; omega)
theorem posi_eq (c : Dev nD) : posi m c = Triplet.positiveRows (m ((c.tc : Thread nD τ).loc main_arg0) : S16384x128.Idx → EReal) := by
  funext i k
  unfold posi Triplet.rowsOf Triplet.positiveRows
  refine (congrFun (V_main_v1 m c) (ValueIdx.ix2 i k)).trans ?_
  exact extractStridedSlice_apply ![8192, 0] (m ((c.tc : Thread nD τ).loc main_arg0) : S16384x128.Idx → EReal)
    slices_S16384x128_S8192x128_8192_0 (ValueIdx.ix2 i k)
    (ValueIdx.ix2 (⟨8192 + i.val, by have := i.isLt; omega⟩ : Fin 16384) k) (fun a => match a with
    | ⟨0, _⟩ => by show 8192 + i.val = 8192 + i.val; omega
    | ⟨1, _⟩ => by show k.val = 0 + k.val; omega)

/-! ## The host lines after the region -/

/-- What the lines after the region leave in `main_v4`: the quotient by 8192.0 of the sum, from 0.0, of the region's output. -/
theorem tail_v4 (c : Dev nD) :
    (Pipeline.afterTail₀ cfgs (dats m) 0 (V0 m) [hostOps1] c main_v4 : S_.Idx → EReal)
      = Host.divf (F := Ideal)
          (Host.reduceAdd (F := Ideal) ((dats m 0 c).arrAt 2 cfg0.N : S8192x1.Idx → EReal) (constant (F := Ideal) S_ .f32 0x00000000#32)
            reducesTo_S8192x1_S_d0_1 h_S_)
          (constant (F := Ideal) S_ .f32 0x46000000#32) := by
  unfold Pipeline.afterTail₀
  show StableHlo.after hostOps1 _ (Proc.devRef .tc main_v4) = _
  after_results
  exact congrArg (fun x : S8192x1.Idx → EReal => Host.divf (F := Ideal)
      (Host.reduceAdd (F := Ideal) x (constant (F := Ideal) S_ .f32 0x00000000#32) reducesTo_S8192x1_S_d0_1 h_S_)
      (constant (F := Ideal) S_ .f32 0x46000000#32))
    (Pipeline.withArrays_arr spec0 launch0.win.arr_inj c (V0 m c) (fun w => (dats m 0 c).arrAt w cfg0.N) 2)

/-- The quotient read at the scalar's one index, at the extended reals: the sum of the [8192, 1] array runs over its rows (the
    second axis has the one coordinate 0), from the word 0.0, divided by the word 8192.0. -/
theorem tail_value (x : S8192x1.Idx → EReal) (i : S_.Idx) :
    (Host.divf (F := Ideal)
        (Host.reduceAdd (F := Ideal) x (constant (F := Ideal) S_ .f32 0x00000000#32) reducesTo_S8192x1_S_d0_1 h_S_)
        (constant (F := Ideal) S_ .f32 0x46000000#32) : S_.Idx → EReal) i
      = Ideal.div (Triplet.c0 + ∑ r : Fin 8192, x (ValueIdx.ix2 r 0)) Triplet.cN := by
  have hsum : (Host.reduceAdd (F := Ideal) x (constant (F := Ideal) S_ .f32 0x00000000#32) reducesTo_S8192x1_S_d0_1 h_S_ : S_.Idx → EReal) i
      = Triplet.c0 + ∑ r : Fin 8192, x (ValueIdx.ix2 r 0) := by
    simp only [Host.reduceAdd, Ideal.hostReduceAdd_def]
    refine (Ideal.hostReduceAdd_total reducesTo_S8192x1_S_d0_1 (fun b => b.elim0) x _ i).trans ?_
    refine congrArg (fun s => Triplet.c0 + s) ?_
    refine (ValueIdx.sum_idx2 x).trans ?_
    exact Finset.sum_congr rfl fun r _ => Fin.sum_univ_one fun b : Fin 1 => x (ValueIdx.ix2 r b)
  exact congrArg (fun s => Ideal.div s Triplet.cN) hsum

/-- The scalar the lines after the region leave is the triplet loss of the two arrays the region was handed. -/
theorem loss_value (c : Dev nD) (i : S_.Idx) :
    (Pipeline.afterTail₀ cfgs (dats m) 0 (V0 m) [hostOps1] c main_v4 : S_.Idx → EReal) i
      = Triplet.loss (anc m c) (posi m c) := by
  refine (congrFun (tail_v4 m c) i).trans ?_
  refine (tail_value _ i).trans ?_
  unfold Triplet.loss
  exact congrArg (fun s => Ideal.div (Triplet.c0 + s) Triplet.cN)
    (Finset.sum_congr rfl fun r _ => congrFun (final_arr m c) (ValueIdx.ix2 r 0))

theorem run : θ_run defs (onTc (τ := τ) (main (F := Ideal))) ⟨m, fun _ => 0, ρ⟩ (fun r => ∀ c : Dev nD,
      (r.2.mem ((c.tc : Thread nD τ).loc main_v4) : S_.Idx → EReal)
        = (fun _ => Triplet.loss (Triplet.anchorRows (m ((c.tc : Thread nD τ).loc main_arg0) : S16384x128.Idx → EReal))
            (Triplet.positiveRows (m ((c.tc : Thread nD τ).loc main_arg0) : S16384x128.Idx → EReal)))
      ∧ r.2.mem ((c.tc : Thread nD τ).loc main_arg0) = m ((c.tc : Thread nD τ).loc main_arg0)) := by
  refine (θ_run defs _ _).mono (fun r h c => ⟨?_, ?_⟩) (run_main m ρ)
  · have h4 : (r.2.mem ((c.tc : Thread nD τ).loc main_v4) : S_.Idx → EReal)
        = (Pipeline.afterTail₀ cfgs (dats m) 0 (V0 m) [hostOps1] c main_v4 : S_.Idx → EReal) :=
      (h c).2 main_v4 (Pipeline.mem_restRefs_of main_v4 (by decide) (by decide))
    funext i
    refine (congrFun h4 i).trans ?_
    rw [← anc_eq m c, ← posi_eq m c]
    exact loss_value m c i
  · exact ((h c).2 main_arg0 (Pipeline.mem_restRefs_of main_arg0 (by decide) (by decide))).trans (W_main_arg0 m (dats m) c)

end Cert.KernelIdeal.LossRun
end
-- ==== Proof.lean ====
/-
  The triplet loss with the nearest positive row as the negative: for the [16384, 128] input, anchor rows A (the first
  8192 rows) and positive rows P (the last 8192),

      loss = (0 + ∑ᵢ max ((‖Aᵢ − Pᵢ‖ − minⱼ √(max ((‖Aᵢ‖² + ‖Pⱼ‖²) − 2 · Aᵢ·Pⱼ) 0)) + 1) 0) / 8192     (Proof/TripletSpec.lean).

  The reference computes exactly this, operation by operation (Proof/RefLoss.lean). The kernel computes, per grid
  point, the hinges of 1024 anchor rows, the minimum over the 8192 positive rows taken as a running minimum over eight
  chunks of 1024 rows with the squared distance's terms in the other order (Proof/KernelRow.lean: the body's arithmetic
  at one row; Proof/KernelArr.lean: the blocks the body loads are the chunks of the positive array, the eight output
  blocks tile the [8192, 1] array), and the host lines after the region take the mean (Proof/KernelRun.lean). Over the
  extended reals the two agree by commutativity of + and · and because a running minimum over chunks, each folded from
  +∞, is the minimum over all rows: none of this needs the inputs finite, so the precondition is never opened.
  The idealization rewrote nothing, so the kernel's idealization is its own text read over the extended reals.
-/
import proofs.«179339_j30717606101531_1_alg».proof.Defs
import proofs.«179339_j30717606101531_1_alg».proof.Proof.Gen.Kernel
import proofs.«179339_j30717606101531_1_alg».proof.Proof.Gen.Kernel.Skeleton
import proofs.«179339_j30717606101531_1_alg».proof.Proof.Gen.Kernel.Launch
import proofs.«179339_j30717606101531_1_alg».proof.Proof.Gen.Kernel.Points
import proofs.«179339_j30717606101531_1_alg».proof.Proof.Gen.Kernel.Frame
import proofs.«179339_j30717606101531_1_alg».proof.Proof.Gen.KernelIdeal
import proofs.«179339_j30717606101531_1_alg».proof.Proof.Gen.KernelIdeal.Skeleton
import proofs.«179339_j30717606101531_1_alg».proof.Proof.Gen.KernelIdeal.Launch
import proofs.«179339_j30717606101531_1_alg».proof.Proof.Gen.KernelIdeal.Points
import proofs.«179339_j30717606101531_1_alg».proof.Proof.Gen.KernelIdeal.Frame
import proofs.«179339_j30717606101531_1_alg».proof.Proof.Gen.ReferenceIdeal
import proofs.«179339_j30717606101531_1_alg».proof.Proof.Gen.Pre_finite_inputs
import proofs.«179339_j30717606101531_1_alg».proof.Proof.Gen.ReferenceIdeal.Run
import proofs.«179339_j30717606101531_1_alg».proof.Proof.Gen.ReferenceIdeal.Read
import proofs.«179339_j30717606101531_1_alg».proof.Proof.RefLoss
import proofs.«179339_j30717606101531_1_alg».proof.Proof.KernelRun
import Idealize.ShloMosaic.Adequacy
import Idealize.ShloMosaic.Init

noncomputable section

namespace Cert.Proof

open Idealize.ShloMosaic Idealize.SL.Sem

/-- Both word-level and idealized kernel run to the end with the argument unchanged. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss of the two halves of an argument they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.LossRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  exact Cert.ReferenceIdeal.RefLoss.ref_loss _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
